-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x640000 32) (main_arg2 : FVec F S128x128 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x128 : Shape := ⟨2, ![1, 128]⟩
abbrev S10000x128 : Shape := ⟨2, ![10000, 128]⟩

abbrev nBuf : Space → Nat
  | .hbm => 7
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S10000x128, .f32⟩
  | .local _ .vmem, ⟨6, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S100000x128, .f32⟩
  | .hbm, ⟨10, _⟩ => ⟨S100000x128, .f32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .f32⟩
  | .hbm, ⟨21, _⟩ => ⟨S100000x128, .f32⟩
  | .hbm, ⟨22, _⟩ => ⟨S640000x1, .i32⟩
  | .hbm, ⟨23, _⟩ => ⟨S100000x128, .f32⟩
  | .hbm, ⟨24, _⟩ => ⟨S_, .f32⟩
  | .hbm, ⟨25, _⟩ => ⟨S640000, .f32⟩
  | .hbm, ⟨26, _⟩ => ⟨S_, .f32⟩
  | .hbm, ⟨27, _⟩ => ⟨S100000, .f32⟩
  | .hbm, ⟨28, _⟩ => ⟨S640000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf

class Facts : Prop extends Facts₀ where

variable [Facts]
-- ==== Proof.SplitWeights.lean ====
/-
  An affine map whose weight matrix is given as two summands.

  For a matrix `x` of 100000 rows and 128 columns, two square matrices `wc` and `wn` of order 128 and a vector `b`
  of length 128, entry (r, q) of the result can be written in two ways:

    * `twoProducts`:    (Σₖ x[r,k]·wc[k,q]  +  Σₖ x[r,k]·wn[k,q])  +  b[q]     — two matrix products, added;
    * `foldedProduct`:   Σₖ x[r,k]·(wc[k,q] + wn[k,q])              +  b[q]     — one product with the summed matrix.

  Over the real numbers the two agree by distributivity and by splitting a finite sum of sums.  On the extended
  reals distributivity fails at the infinities (for a negative real a, a·(⊤ + ⊥) = ⊤ but a·⊤ + a·⊥ = ⊥; and
  ⊤·(1 + (-1)) = 0 but ⊤·1 + ⊤·(-1) = ⊥), so the equation is stated for matrices whose entries are all real; the
  vector `b` is added last on both sides and may be anything.
-/
import Idealize.ShloMosaic.PureOps.Ideal
import Idealize.ShloMosaic.Lib.ValueIdx

noncomputable section

open scoped BigOperators

namespace Cert.SplitWeights

open Idealize.ShloMosaic Idealize.ShloMosaic.ValueIdx

/-- The shape of `x` and of the result: 100000 rows of 128 entries. -/
abbrev Rows : Shape := ⟨2, ![100000, 128]⟩
/-- The shape of each weight matrix. -/
abbrev Square : Shape := ⟨2, ![128, 128]⟩
/-- The shape of the bias vector. -/
abbrev Bias : Shape := ⟨1, ![128]⟩

/-- Every entry of a family of extended reals is a real number. -/
def AllReal {ι : Type} (v : ι → EReal) : Prop := ∀ i, ∃ r : ℝ, v i = (r : EReal)

/-- Entry (r, q) as two matrix products added, then the bias. -/
def twoProductsAt (x : Rows.Idx → EReal) (wc wn : Square.Idx → EReal) (b : Bias.Idx → EReal) (r : Fin 100000) (q : Fin 128) : EReal :=
  (∑ k : Fin 128, x (ix2 r k) * wc (ix2 k q) + ∑ k : Fin 128, x (ix2 r k) * wn (ix2 k q)) + b (ix1 q)

/-- Entry (r, q) as one product with the entrywise sum of the two matrices, then the bias. -/
def foldedProductAt (x : Rows.Idx → EReal) (wc wn : Square.Idx → EReal) (b : Bias.Idx → EReal) (r : Fin 100000) (q : Fin 128) : EReal :=
  (∑ k : Fin 128, x (ix2 r k) * (wc (ix2 k q) + wn (ix2 k q))) + b (ix1 q)

/-- The whole result, two products added. -/
def twoProducts (x : Rows.Idx → EReal) (wc wn : Square.Idx → EReal) (b : Bias.Idx → EReal) : Rows.Idx → EReal :=
  fun i => twoProductsAt x wc wn b (i 0) (i 1)

/-- The whole result, one product with the summed matrix. -/
def foldedProduct (x : Rows.Idx → EReal) (wc wn : Square.Idx → EReal) (b : Bias.Idx → EReal) : Rows.Idx → EReal :=
  fun i => foldedProductAt x wc wn b (i 0) (i 1)

/-- Among real numbers, read as extended reals, a product distributes over a sum. -/
theorem coe_mul_add (a c n : ℝ) : (a : EReal) * ((c : EReal) + (n : EReal)) = (a : EReal) * c + (a : EReal) * n := by
  rw [← EReal.coe_add, ← EReal.coe_mul, ← EReal.coe_mul, ← EReal.coe_mul, ← EReal.coe_add, mul_add]

/-- A finite sum of products with a sum of two real families splits into the two sums of products. -/
theorem sum_mul_add {ι : Type} [Fintype ι] (a c n : ι → EReal) (ha : AllReal a) (hc : AllReal c) (hn : AllReal n) :
    ∑ k, a k * (c k + n k) = ∑ k, a k * c k + ∑ k, a k * n k := by
  rw [← Finset.sum_add_distrib]
  refine Finset.sum_congr rfl fun k _ => ?_
  obtain ⟨a', ha'⟩ := ha k
  obtain ⟨c', hc'⟩ := hc k
  obtain ⟨n', hn'⟩ := hn k
  rw [ha', hc', hn']
  exact coe_mul_add a' c' n'

/-- With real entries in `x`, `wc` and `wn`, the one product with the summed matrix is the sum of the two products. -/
theorem foldedProduct_eq_twoProducts (x : Rows.Idx → EReal) (wc wn : Square.Idx → EReal) (b : Bias.Idx → EReal)
    (hx : AllReal x) (hc : AllReal wc) (hn : AllReal wn) : foldedProduct x wc wn b = twoProducts x wc wn b := by
  funext i
  show (∑ k : Fin 128, x (ix2 (i 0) k) * (wc (ix2 k (i 1)) + wn (ix2 k (i 1)))) + b (ix1 (i 1))
    = (∑ k : Fin 128, x (ix2 (i 0) k) * wc (ix2 k (i 1)) + ∑ k : Fin 128, x (ix2 (i 0) k) * wn (ix2 k (i 1))) + b (ix1 (i 1))
  exact congrArg (fun s => s + b (ix1 (i 1)))
    (sum_mul_add (fun k : Fin 128 => x (ix2 (i 0) k)) (fun k : Fin 128 => wc (ix2 k (i 1))) (fun k : Fin 128 => wn (ix2 k (i 1)))
      (fun k => hx _) (fun k => hc _) (fun k => hn _))

end Cert.SplitWeights

end
-- ==== Proof.BodyEntries.lean ====
/-
  What the kernel's body writes, entry by entry.

  At one grid point the body holds a block `xb` of 10000 rows of `x`, the two weight matrices `wc`, `wn` whole and the
  bias as a 1 × 128 row `b`.  It adds the two matrices entrywise, multiplies the block by that sum into a zero
  accumulator (a change of float format on the way is the identity on extended reals), and adds the bias row to
  every row.  So entry (p, q) of what it stores is

      Σₖ xb[p,k] · (wc[k,q] + wn[k,q])  +  b[0,q].

  Two readings make this up: the matrix product at an entry is the sum over the one contracted coordinate k of the
  left operand at (p, k) times the right operand at (k, q); and a 1 × 128 row broadcast to 10000 × 128 reads, at
  (p, q), the row's entry (0, q).
-/
import proofs.«403109_j39006892982902_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.SplitWeights.Body

open Cert.KernelIdeal Cert.KernelIdeal.Gen Idealize.ShloMosaic Idealize.ShloMosaic.ValueIdx

/-! ## The product's operand indices, axis by axis -/

/-- The left operand's row is the output's row. -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column is the contracted coordinate. -/
theorem lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the contracted coordinate. -/
theorem rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column is the output's column. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! ## The two non-pointwise operations at an entry -/

/-- The block-by-matrix product into a zero accumulator, at entry (p, q): Σₖ l[p,k] · r[k,q]. -/
theorem product_at {φ₁ φ₂ : FTy} (l : FVec Ideal S10000x128 φ₁) (r : FVec Ideal S128x128 φ₂) (p : Fin 10000) (q : Fin 128) :
    matmul dot_S10000x128_S128x128_S10000x128_1_0_0_1_n_n none l r (constant S10000x128 .f32 0x00000000#32) (ix2 p q)
      = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row broadcast over the block's rows, at entry (p, q): the row's entry (0, q). -/
theorem biasRow_at {α : Type} (b : S1x128.Idx → α) (p : Fin 10000) (q : Fin 128) :
    broadcastTo S10000x128 (shapeCast S1x128 b shapeCasts_S1x128_S1x128) broadcasts_S1x128_S10000x128 (ix2 p q)
      = b (ix2 (0 : Fin 1) q) := by
  rw [shapeCast_self]
  exact broadcastTo_apply b broadcasts_S1x128_S10000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-! ## The stored value at an entry -/

/-- Entry (p, q) of what the body stores: Σₖ xb[p,k] · (wc[k,q] + wn[k,q]) + b[0,q]. -/
theorem stored_at (wc wn : Vec Ideal S128x128 .f32) (xb : Vec Ideal S10000x128 .f32) (b : Vec Ideal S1x128 .f32)
    (p : Fin 10000) (q : Fin 128) :
    k0_pay1 (F := Ideal) wc wn xb b (ix2 p q)
      = (∑ k : Fin 128, xb (ix2 p k) * (wc (ix2 k q) + wn (ix2 k q))) + b (ix2 (0 : Fin 1) q) := by
  unfold k0_pay1
  show (matmul (F := Ideal) dot_S10000x128_S128x128_S10000x128_1_0_0_1_n_n none (truncf .bf16 xb bitsLt_bf16_f32) (truncf .bf16 (addf wc wn) bitsLt_bf16_f32)
        (constant S10000x128 .f32 0x00000000#32) (ix2 p q) : EReal)
      + broadcastTo S10000x128 (shapeCast S1x128 b shapeCasts_S1x128_S1x128) broadcasts_S1x128_S10000x128 (ix2 p q) = _
  rw [product_at, biasRow_at]
  rfl

end Cert.SplitWeights.Body

end
-- ==== Proof.KernelArray.lean ====
/-
  The kernel's result array, as one function of the arguments.

  The grid has ten points.  At point t the body holds rows 10000·t … 10000·t + 9999 of `x`, both weight matrices
  whole and the bias as the one row a reshape made of it, and writes back rows 10000·t … 10000·t + 9999 of the
  result.  Entry (p, q) of what it writes is Σₖ xb[p,k]·(wc[k,q] + wn[k,q]) + b[0,q] of those blocks, which read
  through the blocks is entry (10000·t + p, q) of `foldedProduct` of the argument arrays: point t writes block t of
  that one function.  The ten blocks tile the 100000 rows (row r lies in block r / 10000), so after the run the
  result array IS `foldedProduct` of the arguments.
-/
import proofs.«403109_j39006892982902_2_alg».proof.Proof.Gen.KernelIdeal.Value
import proofs.«403109_j39006892982902_2_alg».proof.Proof.BodyEntries
import proofs.«403109_j39006892982902_2_alg».proof.Proof.SplitWeights
import Idealize.ShloMosaic.Lib.StableHlo.Run

noncomputable section

open scoped BigOperators

namespace Cert.SplitWeights.Kernel

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeroOffset : (![0, 0] : Fin 2 → Nat) = fun _ => 0 := funext fun a => by fin_cases a <;> rfl

/-- Where each window's block sits at grid point t: the `x` block and the output block at block row t, the weight
    matrices and the bias row at the origin. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of block t is a row of the array. -/
theorem row_lt (t : Fin cfg0.N) (p : Fin 10000) : 10000 * t.val + p.val < 100000 := by
  have ht : t.val < 10 := lt_of_lt_of_eq t.isLt N_0
  have hp : p.val < 10000 := p.isLt
  omega

/-- Row p of block t, as a row of the array: 10000·t + p. -/
abbrev rowOf (t : Fin cfg0.N) (p : Fin 10000) : Fin 100000 := ⟨10000 * t.val + p.val, row_lt t p⟩

/-- The function the result array ends at. -/
abbrev result (c : Dev nD) : S100000x128.Idx → EReal :=
  foldedProduct (m ((c : Thread nD τ).loc main_arg0)) (m ((c : Thread nD τ).loc main_arg2)) (m ((c : Thread nD τ).loc main_arg3))
    (m ((c : Thread nD τ).loc main_arg4))

/-! ## Each window's block, read through to the arguments -/

/-- Entry (p, k) of the `x` block at point t is entry (10000·t + p, k) of `x`. -/
theorem xBlock_at (c : Dev nD) (t : Fin cfg0.N) (p : Fin 10000) (k : Fin 128) :
    (iblk m c 0 t : Vec Ideal S10000x128 .f32) (ix2 p k)
      = (m ((c : Thread nD τ).loc main_arg0) : S100000x128.Idx → EReal) (ix2 (rowOf t p) k) := by
  obtain ⟨e0, e1, -⟩ := blockIndex t
  show V m c main_arg0 (((cfg0.win 0).blk t).view.emb (ix2 p k)) = _
  rw [V_main_arg0]
  congr 1
  funext a
  apply Fin.ext
  match a with
  | ⟨0, _⟩ => show win0_0.index t (0 : Fin 2) * 10000 + 1 * p.val = 10000 * t.val + p.val; omega
  | ⟨1, _⟩ => show win0_0.index t (1 : Fin 2) * 128 + 1 * k.val = k.val; omega

/-- The first weight matrix's block is the matrix. -/
theorem wcBlock_at (c : Dev nD) (t : Fin cfg0.N) (k q : Fin 128) :
    (iblk m c 1 t : Vec Ideal S128x128 .f32) (ix2 k q)
      = (m ((c : Thread nD τ).loc main_arg2) : S128x128.Idx → EReal) (ix2 k q) := by
  obtain ⟨-, -, e0, e1, -⟩ := blockIndex t
  show V m c main_arg2 (((cfg0.win 1).blk t).view.emb (ix2 k q)) = _
  rw [V_main_arg2]
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- The second weight matrix's block is the matrix. -/
theorem wnBlock_at (c : Dev nD) (t : Fin cfg0.N) (k q : Fin 128) :
    (iblk m c 2 t : Vec Ideal S128x128 .f32) (ix2 k q)
      = (m ((c : Thread nD τ).loc main_arg3) : S128x128.Idx → EReal) (ix2 k q) := by
  obtain ⟨-, -, -, -, e0, e1, -⟩ := blockIndex t
  show V m c main_arg3 (((cfg0.win 2).blk t).view.emb (ix2 k q)) = _
  rw [V_main_arg3]
  congr 1
  funext a
  apply Fin.ext
  match a with
  | ⟨0, _⟩ => show win0_2.index t (0 : Fin 2) * 128 + 1 * k.val = k.val; omega
  | ⟨1, _⟩ => show win0_2.index t (1 : Fin 2) * 128 + 1 * q.val = q.val; omega

/-- The bias row the region finds is the bias vector laid out as one row. -/
theorem biasRow_eq (c : Dev nD) :
    (V m c main_v0 : S1x128.Idx → EReal)
      = shapeCast S1x128 (m ((c : Thread nD τ).loc main_arg4) : S128.Idx → EReal) shapeCasts_S128_S1x128 := by
  dsimp only [V, hostOps0]
  after_results
  rfl

/-- Entry (0, q) of the bias row's block is entry q of the bias vector. -/
theorem biasBlock_at (c : Dev nD) (t : Fin cfg0.N) (q : Fin 128) :
    (iblk m c 3 t : Vec Ideal S1x128 .f32) (ix2 (0 : Fin 1) q)
      = (m ((c : Thread nD τ).loc main_arg4) : S128.Idx → EReal) (ix1 q) := by
  obtain ⟨-, -, -, -, -, -, e0, e1, -⟩ := blockIndex t
  have hemb : ((cfg0.win 3).blk t).view.emb (ix2 (0 : Fin 1) q) = (ix2 (0 : Fin 1) q : S1x128.Idx) := by
    funext a
    apply Fin.ext
    match a with
    | ⟨0, _⟩ => show win0_3.index t (0 : Fin 2) * 1 + 1 * 0 = 0; omega
    | ⟨1, _⟩ => show win0_3.index t (1 : Fin 2) * 128 + 1 * q.val = q.val; omega
  show V m c main_v0 (((cfg0.win 3).blk t).view.emb (ix2 (0 : Fin 1) q)) = _
  rw [hemb, biasRow_eq]
  exact shapeCast_apply _ shapeCasts_S128_S1x128 (ix2 (0 : Fin 1) q) (ix1 q)
    (by rewrite [Shape.rowMajor_val_one, Shape.rowMajor_val_two]; show q.val = 0 * 128 + q.val; omega)

/-- Entry (p, q) of the output block at point t sits at entry (10000·t + p, q) of the result array. -/
theorem outBlock_emb (t : Fin cfg0.N) (p : Fin 10000) (q : Fin 128) :
    ((cfg0.win 4).blk t).view.emb (ix2 p q) = (ix2 (rowOf t p) q : S100000x128.Idx) := by
  obtain ⟨-, -, -, -, -, -, -, -, e0, e1⟩ := blockIndex t
  funext a
  apply Fin.ext
  match a with
  | ⟨0, _⟩ => show win0_4.index t (0 : Fin 2) * 10000 + 1 * p.val = 10000 * t.val + p.val; omega
  | ⟨1, _⟩ => show win0_4.index t (1 : Fin 2) * 128 + 1 * q.val = q.val; omega

/-! ## What a point writes back, the cover, the array -/

/-- Point t writes back block t of `result`. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zeroOffset]
  simp only [View.ld_unit_zero (S := S128x128) zeroOffset, View.ld_unit_zero (S := S10000x128) zeroOffset,
    View.ld_unit_zero (S := S1x128) zeroOffset]
  funext j
  obtain ⟨p, q, rfl⟩ : ∃ (p : Fin 10000) (q : Fin 128), j = ix2 p q := ⟨j 0, j 1, eq_ix2 j⟩
  show k0_pay1 (F := Ideal) (iblk m c 1 t) (iblk m c 2 t) (iblk m c 0 t) (iblk m c 3 t) (ix2 p q)
    = result m c (((cfg0.win 4).blk t).view.emb (ix2 p q))
  rw [outBlock_emb t p q]
  refine (Cert.SplitWeights.Body.stored_at (iblk m c 1 t) (iblk m c 2 t) (iblk m c 0 t) (iblk m c 3 t) p q).trans ?_
  rw [biasBlock_at m c t q]
  refine congrArg (fun s => s + (m ((c : Thread nD τ).loc main_arg4) : S128.Idx → EReal) (ix1 q)) ?_
  refine Finset.sum_congr rfl fun k _ => ?_
  rw [xBlock_at m c t p k, wcBlock_at m c t k q, wnBlock_at m c t k q]

/-- An index of the array is in point t's block iff each coordinate is in the block's range on its axis. -/
theorem mem_block (t : Fin cfg0.N) (i : S100000x128.Idx) :
    i ∈ ((cfg0.win 4).blk t).view.set ↔ ∀ a : Fin 2, win0_4.index t a * S10000x128.size a ≤ (i a).val
      ∧ (i a).val < win0_4.index t a * S10000x128.size a + S10000x128.size a := by
  show i ∈ ((View.whole main_v1).slice (win0_4.rect t)).set ↔ _
  rw [View.set_slice_whole, Rect.mem_set_unit]
  exact Iff.rfl

/-- Every entry of the array is written: row r by the point r / 10000. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 10 := N_0
  have ht : (i 0).val / 10000 < cfg0.N := by rw [hN]; omega
  obtain ⟨-, -, -, -, -, -, -, -, e0, e1⟩ := blockIndex ⟨(i 0).val / 10000, ht⟩
  have e0' : win0_4.index ⟨(i 0).val / 10000, ht⟩ (0 : Fin 2) = (i 0).val / 10000 := e0
  refine ⟨⟨(i 0).val / 10000, ht⟩, flush0_4 _, ?_⟩
  rw [mem_block]
  intro a
  match a with
  | ⟨0, _⟩ =>
    show win0_4.index ⟨(i 0).val / 10000, ht⟩ (0 : Fin 2) * 10000 ≤ (i 0).val
      ∧ (i 0).val < win0_4.index ⟨(i 0).val / 10000, ht⟩ (0 : Fin 2) * 10000 + 10000
    omega
  | ⟨1, _⟩ =>
    show win0_4.index ⟨(i 0).val / 10000, ht⟩ (1 : Fin 2) * 128 ≤ (i 1).val
      ∧ (i 1).val < win0_4.index ⟨(i 0).val / 10000, ht⟩ (1 : Fin 2) * 128 + 128
    omega

/-- After the run the result array is `foldedProduct` of the arguments. -/
theorem final (c : Dev nD) : (dats m 0 c).arrAt 4 cfg0.N = result m c :=
  (dats m 0 c).arrAt_eq_of_cover 4 (result m c) (fun t _ => flushed_eq m c t) covered

/-- The kernel's run, read: the result at `foldedProduct` of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.SplitWeights.Kernel

end
-- ==== Proof.ReferenceEntries.lean ====
/-
  The reference's result, entry by entry.

  The reference multiplies `x` by each of the two weight matrices on the host, adds the two products, and adds the
  bias broadcast first to a 1 × 128 row and then over all 100000 rows.  (Its scatter-mean over the edge list is computed
  and dropped: no operation that feeds the result reads it.)  Read at entry (r, q), each host product is the sum over
  k of x[r,k] times the matrix's entry (k, q), and the twice-broadcast bias is b[q]: the result is `twoProducts`.
-/
import proofs.«403109_j39006892982902_2_alg».proof.Proof.Gen.ReferenceIdeal.Read
import proofs.«403109_j39006892982902_2_alg».proof.Proof.SplitWeights

noncomputable section

open scoped BigOperators

namespace Cert.SplitWeights.Reference

open Cert.ReferenceIdeal Cert.ReferenceIdeal.Read Idealize.ShloMosaic Idealize.ShloMosaic.ValueIdx

/-- The first product's left operand index at (i, k) is (row of i, k) … -/
theorem left_first (i : S100000x128.Idx) (k : Fin 128) : lidx_main_v4 i k = ix2 (i 0) k :=
  funext fun a => Fin.ext (by match a with | ⟨0, _⟩ => rfl | ⟨1, _⟩ => rfl)
/-- … and its right operand index (k, column of i). -/
theorem right_first (i : S100000x128.Idx) (k : Fin 128) : ridx_main_v4 i k = ix2 k (i 1) :=
  funext fun a => Fin.ext (by match a with | ⟨0, _⟩ => rfl | ⟨1, _⟩ => rfl)
/-- The same for the second product. -/
theorem left_second (i : S100000x128.Idx) (k : Fin 128) : lidx_main_v5 i k = ix2 (i 0) k :=
  funext fun a => Fin.ext (by match a with | ⟨0, _⟩ => rfl | ⟨1, _⟩ => rfl)
theorem right_second (i : S100000x128.Idx) (k : Fin 128) : ridx_main_v5 i k = ix2 k (i 1) :=
  funext fun a => Fin.ext (by match a with | ⟨0, _⟩ => rfl | ⟨1, _⟩ => rfl)
/-- Through the two broadcasts, entry i of the bias term reads the vector at i's column. -/
theorem bias_index (i : S100000x128.Idx) : idx_main_v26 (idx_main_v27 i) = ix1 (i 1) :=
  funext fun a => Fin.ext (by match a with | ⟨0, _⟩ => rfl)

/-- The reference's result is the sum of the two products plus the bias. -/
theorem result_eq (x : FVec Ideal S100000x128 .f32) (wc wn : FVec Ideal S128x128 .f32) (b : FVec Ideal S128 .f32) :
    val_main_v28 (F := Ideal) x wc wn b = twoProducts x wc wn b := by
  funext i
  rw [val_main_v28_apply, val_main_v25_apply, val_main_v4_apply, val_main_v5_apply, val_main_v27_apply, val_main_v26_apply]
  simp only [left_first, right_first, left_second, right_second, bias_index]
  rfl

end Cert.SplitWeights.Reference

end
-- ==== Proof.RealEntries.lean ====
/-
  From the precondition to real entries.

  The precondition says, of each float argument, that every entry's absolute value is below +∞, and takes the
  conjunction.  On the extended reals |a| is max a (-a), and max a (-a) < ⊤ rules out both a = ⊤ and a = ⊥ (whose
  negation is ⊤): such an `a` is a real number.  Read back entry by entry, the precondition therefore makes `x` and both
  weight matrices families of reals, which is what distributivity needs.
-/
import proofs.«403109_j39006892982902_2_alg».proof.Pre_finite_inputs
import proofs.«403109_j39006892982902_2_alg».proof.Proof.Gen.Pre_finite_inputs
import proofs.«403109_j39006892982902_2_alg».proof.Proof.SplitWeights
import Idealize.ShloMosaic.Lib.ReduceAll
import Idealize.ShloMosaic.Lib.ValueIdx
import Idealize.ShloMosaic.Lib.Pipeline.Value

noncomputable section

namespace Cert.SplitWeights.Finite

open Cert.Pre_finite_inputs Cert.Pre_finite_inputs.Gen Idealize.ShloMosaic Idealize.ShloMosaic.ValueIdx

/-- The scalar shape has one index. -/
instance : Subsingleton S_.Idx := ⟨fun a b => funext fun d => d.elim0⟩

/-- The word the precondition compares against denotes +∞. -/
theorem infinity_word : Ideal.ofBits .f32 0x7F800000#32 = (⊤ : EReal) := by simp [Ideal.ofBits, Ideal.ieee]

/-- An extended real whose absolute value is below +∞ is a real number. -/
theorem real_of_abs_lt_top (a : EReal) (h : max a (-a) < ⊤) : ∃ r : ℝ, a = (r : EReal) := by
  induction a using EReal.rec with
  | bot => simp at h
  | top => simp at h
  | coe r => exact ⟨r, rfl⟩

/-- The scalar +∞ broadcast to any shape reads +∞ everywhere. -/
theorem splat_at {t : Shape} (h : S_.BroadcastsInDim t (![] : Fin 0 → Fin t.rank)) (i : t.Idx) :
    broadcastInDim t ![] h (constant (F := Ideal) S_ .f32 0x7F800000#32) i = (⊤ : EReal) :=
  (broadcastInDim_apply _ h _ i ix0 (fun a => a.elim0)).trans infinity_word

/-- One entry of "|v| < +∞" holding says that entry of `v` is real. -/
theorem real_of_lt_splat {t : Shape} (v : FVec Ideal t .f32) (h : S_.BroadcastsInDim t (![] : Fin 0 → Fin t.rank)) (i : t.Idx)
    (hi : cmpf .olt (Host.absf v) (broadcastInDim t ![] h (constant (F := Ideal) S_ .f32 0x7F800000#32)) i = 1#1) :
    ∃ r : ℝ, v i = (r : EReal) := by
  have h' : Ideal.cmp .olt (max (v i) (-(v i))) (broadcastInDim t ![] h (constant (F := Ideal) S_ .f32 0x7F800000#32) i) = 1#1 := hi
  rw [splat_at] at h'
  refine real_of_abs_lt_top _ ?_
  by_contra hn
  simp [Ideal.cmp, hn] at h'

/-- Under the precondition `x` and both weight matrices have real entries. -/
theorem allReal_of_pre (x : FVec Ideal S100000x128 .f32) (e : IVec S2x640000 32) (wc wn : FVec Ideal S128x128 .f32)
    (b : FVec Ideal S128 .f32) (h : fn (F := Ideal) x e wc wn b = fun _ => 1#1) :
    AllReal x ∧ AllReal wc ∧ AllReal wn := by
  have h0 := congrFun h ix0
  dsimp only [fn, fn_part1] at h0
  obtain ⟨h123, -⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_⟩
  · exact real_of_lt_splat x _ i (Host.reduce_andi_all _ _ _ _ _ h1 i)
  · exact real_of_lt_splat wc _ i (Host.reduce_andi_all _ _ _ _ _ h2 i)
  · exact real_of_lt_splat wn _ i (Host.reduce_andi_all _ _ _ _ _ h3 i)

end Cert.SplitWeights.Finite

end
-- ==== Proof.lean ====
/-
  A linear layer whose weight is given as two summands, computed two ways.

  The kernel adds the two 128 × 128 weight matrices first and multiplies the 100000 × 128 input by the sum, ten blocks of
  10000 rows at a time, then adds the bias to every row:   out[r,q] = Σₖ x[r,k]·(Wc[k,q] + Wn[k,q]) + b[q].
  The reference multiplies the input by each matrix, adds the two products and then the bias:
                                                           ref[r,q] = (Σₖ x[r,k]·Wc[k,q] + Σₖ x[r,k]·Wn[k,q]) + b[q].
  (The reference also forms a scatter-mean over an edge list and discards it; nothing that reaches its result reads it, and
  the kernel never looks at the edge list.)  The format changes on the kernel's way into the product are the identity
  on extended reals, so the two differ exactly by distributing x[r,k] over Wc[k,q] + Wn[k,q] and splitting the sum.  That
  law fails at infinite entries, and the precondition — every float input finite — is what supplies it: it makes
  every entry of x, Wc and Wn a real number (the bias is added last on both sides and needs nothing).

  The pieces: `SplitWeights` states both forms and proves them equal for real entries; `BodyEntries` reads one entry of
  what the kernel's body stores; `KernelArray` reads each block through to the arguments, shows the ten blocks tile the
  result, and concludes that the kernel's result array is the one-product form; `ReferenceEntries` reads the reference's
  result as the two-product form; `RealEntries` turns the precondition into real entries.  The three frames are the
  generated ones (the reference's is its run with the result dropped), and the idealization rewrote nothing.
-/
import proofs.«403109_j39006892982902_2_alg».proof.Defs
import proofs.«403109_j39006892982902_2_alg».proof.Proof.Gen.Kernel
import proofs.«403109_j39006892982902_2_alg».proof.Proof.Gen.Kernel.Skeleton
import proofs.«403109_j39006892982902_2_alg».proof.Proof.Gen.Kernel.Launch
import proofs.«403109_j39006892982902_2_alg».proof.Proof.Gen.Kernel.Points
import proofs.«403109_j39006892982902_2_alg».proof.Proof.Gen.Kernel.Frame
import proofs.«403109_j39006892982902_2_alg».proof.Proof.Gen.KernelIdeal
import proofs.«403109_j39006892982902_2_alg».proof.Proof.Gen.KernelIdeal.Skeleton
import proofs.«403109_j39006892982902_2_alg».proof.Proof.Gen.KernelIdeal.Launch
import proofs.«403109_j39006892982902_2_alg».proof.Proof.Gen.KernelIdeal.Points
import proofs.«403109_j39006892982902_2_alg».proof.Proof.Gen.KernelIdeal.Frame
import proofs.«403109_j39006892982902_2_alg».proof.Proof.Gen.ReferenceIdeal
import proofs.«403109_j39006892982902_2_alg».proof.Proof.Gen.Pre_finite_inputs
import proofs.«403109_j39006892982902_2_alg».proof.Proof.Gen.KernelIdeal.Value
import proofs.«403109_j39006892982902_2_alg».proof.Proof.Gen.ReferenceIdeal.Run
import proofs.«403109_j39006892982902_2_alg».proof.Proof.Gen.ReferenceIdeal.Read
import proofs.«403109_j39006892982902_2_alg».proof.Proof.SplitWeights
import proofs.«403109_j39006892982902_2_alg».proof.Proof.KernelArray
import proofs.«403109_j39006892982902_2_alg».proof.Proof.ReferenceEntries
import proofs.«403109_j39006892982902_2_alg».proof.Proof.RealEntries
import Idealize.ShloMosaic.Adequacy
import Idealize.ShloMosaic.Init

noncomputable section

namespace Cert.Proof

open Idealize.ShloMosaic Idealize.ShloMosaic.TcCoe Idealize.SL.Sem Cert.SplitWeights

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments alone: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories agreeing on the arguments and with every float argument finite, both
    programs end with the result at the two-product form of the kernel's arguments: the reference by reading its run,
    the kernel by reading its blocks to the one-product form and distributing, which the real entries allow. -/
theorem algebraic : Cert.algebraic_KernelIdeal_ReferenceIdeal := by
  intro m ρ m' ρ' hpre hagree
  refine ⟨fun c => twoProducts (m ((c.tc : Thread Cert.KernelIdeal.nD Cert.KernelIdeal.τ).loc Cert.KernelIdeal.main_arg0)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Cert.SplitWeights.Kernel.run m ρ)
    obtain ⟨hx, hc, hn⟩ := Cert.SplitWeights.Finite.allReal_of_pre _ _ _ _ _ (hpre c)
    exact foldedProduct_eq_twoProducts _ _ _ _ hx hc hn
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, Cert.SplitWeights.Reference.result_eq,
      (hagree c).1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
